-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S128 .f32) (main_arg6 : FVec F S128x8 .f32) (main_arg7 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x8 .f32 := Host.absf main_arg6
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x8 .f32) (main_arg7 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x8 : Shape := ⟨2, ![100000, 8]⟩
abbrev S5000x8 : Shape := ⟨2, ![5000, 8]⟩
abbrev S1x8 : Shape := ⟨2, ![1, 8]⟩

abbrev nBuf : Space → Nat
  | .hbm => 76
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S8, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x128, .f32⟩
  | .hbm, ⟨68, _⟩ => ⟨S1700000x1, .f32⟩
  | .hbm, ⟨69, _⟩ => ⟨S1700000x128, .f32⟩
  | .hbm, ⟨70, _⟩ => ⟨S1700000x128, .f32⟩
  | .hbm, ⟨71, _⟩ => ⟨S_, .f32⟩
  | .hbm, ⟨72, _⟩ => ⟨S100000x128, .f32⟩
  | .hbm, ⟨73, _⟩ => ⟨S1700000x1, .i32⟩
  | .hbm, ⟨74, _⟩ => ⟨S100000x128, .f32⟩
  | .hbm, ⟨75, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S128x8, .f32⟩
  | .local _ .vmem, ⟨15, _⟩ => ⟨S8, .f32⟩
  | .local _ .vmem, ⟨16, _⟩ => ⟨S5000x8, .f32⟩
  | .local _ .vmem, ⟨17, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x8_S128x8_0_0 : ∀ a, (![0, 0] : Fin 2 → Nat) a + S128x8.size a ≤ S128x8.size a
  h_S128x8 : 0 < S128x8.numel
  inb_S8_S8_0 : ∀ a, (![0] : Fin 1 → Nat) a + S8.size a ≤ S8.size a
  h_S8 : 0 < S8.numel
  shapeCasts_S8_S1x8 : S8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x8_S5000x8_1_0_0_1_n_n_wf : DotDims.WF S5000x128 S128x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x8.size a ≤ S128x8.size a
  hwx2_2 : ∀ i : grid2.Coords, EltTy.bits .f32 = 32 ∨ (Rect.block (s := S128x8) S128x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8.size a ≤ S8.size a
  hwx2_3 : ∀ i : grid2.Coords, EltTy.bits .f32 = 32 ∨ (Rect.block (s := S8) S8.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x8.size a ≤ S100000x8.size a
  hwx2_4 : ∀ i : grid2.Coords, EltTy.bits .f32 = 32 ∨ (Rect.block (s := S100000x8) S5000x8.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S5000x8.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x8 : Shape := ⟨2, ![100000, 8]⟩
abbrev S1x8 : Shape := ⟨2, ![1, 8]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S8, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S100000x8, .f32⟩
  | .hbm, ⟨88, _⟩ => ⟨S1x8, .f32⟩
  | .hbm, ⟨89, _⟩ => ⟨S100000x8, .f32⟩
  | .hbm, ⟨90, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x8_S100000x8_1_0_0_1_n_n_wf : DotDims.WF S100000x128 S128x8 S100000x8 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf

class Facts : Prop extends Facts₀ where

variable [Facts]
-- ==== Proof.FoldKeeps.lean ====
/- For each host stretch between the pallas_calls and each buffer that no operation of the stretch writes, the buffer's
   contents after the stretch are its contents before it: the buffer differs from every operation's result buffer. -/
import proofs.«105008_j89919435309559_1_alg».proof.Proof.Gen.KernelIdeal.Frame

set_option maxRecDepth 16384

noncomputable section

namespace Cert.KernelIdeal.FoldKeeps

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- A host stretch leaves a buffer that none of its operations writes as it found it: the buffer differs from every
    operation's result buffer. -/
local macro "stretch_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## `hostOps0`: from `W0` to `W1` -/

theorem keep0_arg0 (c : Dev nD) : W1 m ρ c (Proc.devRef .tc main_arg0) = W0 m ρ c (Proc.devRef .tc main_arg0) := by
  show StableHlo.after hostOps0 (W0 m ρ c) (Proc.devRef .tc main_arg0) = W0 m ρ c (Proc.devRef .tc main_arg0)
  stretch_keeps hostOps0
theorem keep0_arg2 (c : Dev nD) : W1 m ρ c (Proc.devRef .tc main_arg2) = W0 m ρ c (Proc.devRef .tc main_arg2) := by
  show StableHlo.after hostOps0 (W0 m ρ c) (Proc.devRef .tc main_arg2) = W0 m ρ c (Proc.devRef .tc main_arg2)
  stretch_keeps hostOps0
theorem keep0_arg3 (c : Dev nD) : W1 m ρ c (Proc.devRef .tc main_arg3) = W0 m ρ c (Proc.devRef .tc main_arg3) := by
  show StableHlo.after hostOps0 (W0 m ρ c) (Proc.devRef .tc main_arg3) = W0 m ρ c (Proc.devRef .tc main_arg3)
  stretch_keeps hostOps0
theorem keep0_arg4 (c : Dev nD) : W1 m ρ c (Proc.devRef .tc main_arg4) = W0 m ρ c (Proc.devRef .tc main_arg4) := by
  show StableHlo.after hostOps0 (W0 m ρ c) (Proc.devRef .tc main_arg4) = W0 m ρ c (Proc.devRef .tc main_arg4)
  stretch_keeps hostOps0
theorem keep0_arg5 (c : Dev nD) : W1 m ρ c (Proc.devRef .tc main_arg5) = W0 m ρ c (Proc.devRef .tc main_arg5) := by
  show StableHlo.after hostOps0 (W0 m ρ c) (Proc.devRef .tc main_arg5) = W0 m ρ c (Proc.devRef .tc main_arg5)
  stretch_keeps hostOps0
theorem keep0_arg6 (c : Dev nD) : W1 m ρ c (Proc.devRef .tc main_arg6) = W0 m ρ c (Proc.devRef .tc main_arg6) := by
  show StableHlo.after hostOps0 (W0 m ρ c) (Proc.devRef .tc main_arg6) = W0 m ρ c (Proc.devRef .tc main_arg6)
  stretch_keeps hostOps0
theorem keep0_arg7 (c : Dev nD) : W1 m ρ c (Proc.devRef .tc main_arg7) = W0 m ρ c (Proc.devRef .tc main_arg7) := by
  show StableHlo.after hostOps0 (W0 m ρ c) (Proc.devRef .tc main_arg7) = W0 m ρ c (Proc.devRef .tc main_arg7)
  stretch_keeps hostOps0

/-! ## `hostOps1`: from `W2` to `W3` -/

theorem keep1_v5 (c : Dev nD) : W3 m ρ c (Proc.devRef .tc main_v5) = W2 m ρ c (Proc.devRef .tc main_v5) := by
  show StableHlo.after hostOps1 (W2 m ρ c) (Proc.devRef .tc main_v5) = W2 m ρ c (Proc.devRef .tc main_v5)
  stretch_keeps hostOps1
theorem keep1_v6 (c : Dev nD) : W3 m ρ c (Proc.devRef .tc main_v6) = W2 m ρ c (Proc.devRef .tc main_v6) := by
  show StableHlo.after hostOps1 (W2 m ρ c) (Proc.devRef .tc main_v6) = W2 m ρ c (Proc.devRef .tc main_v6)
  stretch_keeps hostOps1
theorem keep1_v26 (c : Dev nD) : W3 m ρ c (Proc.devRef .tc main_v26) = W2 m ρ c (Proc.devRef .tc main_v26) := by
  show StableHlo.after hostOps1 (W2 m ρ c) (Proc.devRef .tc main_v26) = W2 m ρ c (Proc.devRef .tc main_v26)
  stretch_keeps hostOps1
theorem keep1_arg3 (c : Dev nD) : W3 m ρ c (Proc.devRef .tc main_arg3) = W2 m ρ c (Proc.devRef .tc main_arg3) := by
  show StableHlo.after hostOps1 (W2 m ρ c) (Proc.devRef .tc main_arg3) = W2 m ρ c (Proc.devRef .tc main_arg3)
  stretch_keeps hostOps1
theorem keep1_arg4 (c : Dev nD) : W3 m ρ c (Proc.devRef .tc main_arg4) = W2 m ρ c (Proc.devRef .tc main_arg4) := by
  show StableHlo.after hostOps1 (W2 m ρ c) (Proc.devRef .tc main_arg4) = W2 m ρ c (Proc.devRef .tc main_arg4)
  stretch_keeps hostOps1
theorem keep1_arg5 (c : Dev nD) : W3 m ρ c (Proc.devRef .tc main_arg5) = W2 m ρ c (Proc.devRef .tc main_arg5) := by
  show StableHlo.after hostOps1 (W2 m ρ c) (Proc.devRef .tc main_arg5) = W2 m ρ c (Proc.devRef .tc main_arg5)
  stretch_keeps hostOps1
theorem keep1_arg6 (c : Dev nD) : W3 m ρ c (Proc.devRef .tc main_arg6) = W2 m ρ c (Proc.devRef .tc main_arg6) := by
  show StableHlo.after hostOps1 (W2 m ρ c) (Proc.devRef .tc main_arg6) = W2 m ρ c (Proc.devRef .tc main_arg6)
  stretch_keeps hostOps1
theorem keep1_arg7 (c : Dev nD) : W3 m ρ c (Proc.devRef .tc main_arg7) = W2 m ρ c (Proc.devRef .tc main_arg7) := by
  show StableHlo.after hostOps1 (W2 m ρ c) (Proc.devRef .tc main_arg7) = W2 m ρ c (Proc.devRef .tc main_arg7)
  stretch_keeps hostOps1

/-! ## `hostOps2`: from `W4` to `W5` -/

theorem keep2_arg5 (c : Dev nD) : W5 m ρ c (Proc.devRef .tc main_arg5) = W4 m ρ c (Proc.devRef .tc main_arg5) := by
  show StableHlo.after hostOps2 (W4 m ρ c) (Proc.devRef .tc main_arg5) = W4 m ρ c (Proc.devRef .tc main_arg5)
  stretch_keeps hostOps2
theorem keep2_arg6 (c : Dev nD) : W5 m ρ c (Proc.devRef .tc main_arg6) = W4 m ρ c (Proc.devRef .tc main_arg6) := by
  show StableHlo.after hostOps2 (W4 m ρ c) (Proc.devRef .tc main_arg6) = W4 m ρ c (Proc.devRef .tc main_arg6)
  stretch_keeps hostOps2
theorem keep2_arg7 (c : Dev nD) : W5 m ρ c (Proc.devRef .tc main_arg7) = W4 m ρ c (Proc.devRef .tc main_arg7) := by
  show StableHlo.after hostOps2 (W4 m ρ c) (Proc.devRef .tc main_arg7) = W4 m ρ c (Proc.devRef .tc main_arg7)
  stretch_keeps hostOps2

end Cert.KernelIdeal.FoldKeeps

end
-- ==== Proof.KernelPayloads.lean ====
/- The three kernel bodies' stored values, read at one index, at the exact (extended-real) instance.
   Every body ends in a block product of a [5000,128] left operand (cast to bf16, which is the identity here) with a
   [128,n] weight into a zero accumulator, so its element at row p, column q is the sum over k < 128 of the left
   operand's (p,k) times the weight's (k,q). In the second and third body the left operand is max(a + b, 0) with the
   bias b a row broadcast over the rows; the third adds an output bias row to the product. -/
import proofs.«105008_j89919435309559_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Where the two block products read their operands -/

theorem lhsA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem lhsB_0 (i : S5000x8.Idx) (q : dot_S5000x128_S128x8_S5000x8_1_0_0_1_n_n.contr.Idx) :
    (dot_S5000x128_S128x8_S5000x8_1_0_0_1_n_n.lhsIdx i q 0).val = (i 0).val := by
  unfold DotDims.lhsIdx
  rw [dif_neg (show ¬(0 : Fin S5000x128.rank) ∈ dot_S5000x128_S128x8_S5000x8_1_0_0_1_n_n.lhsBatch by decide), dif_pos (show (0 : Fin S5000x128.rank) ∈ dot_S5000x128_S128x8_S5000x8_1_0_0_1_n_n.lhsNonContracting by decide)]
  rfl
theorem lhsB_1 (i : S5000x8.Idx) (q : dot_S5000x128_S128x8_S5000x8_1_0_0_1_n_n.contr.Idx) :
    (dot_S5000x128_S128x8_S5000x8_1_0_0_1_n_n.lhsIdx i q 1).val = (q ⟨0, by decide⟩).val :=
  dot_S5000x128_S128x8_S5000x8_1_0_0_1_n_n.lhsIdx_val_of_single rfl i q
theorem rhsB_0 (i : S5000x8.Idx) (q : dot_S5000x128_S128x8_S5000x8_1_0_0_1_n_n.contr.Idx) :
    (dot_S5000x128_S128x8_S5000x8_1_0_0_1_n_n.rhsIdx i q 0).val = (q ⟨0, by decide⟩).val :=
  dot_S5000x128_S128x8_S5000x8_1_0_0_1_n_n.rhsIdx_val_of_single rfl i q
theorem rhsB_1 (i : S5000x8.Idx) (q : dot_S5000x128_S128x8_S5000x8_1_0_0_1_n_n.contr.Idx) :
    (dot_S5000x128_S128x8_S5000x8_1_0_0_1_n_n.rhsIdx i q 1).val = (i 1).val := by
  unfold DotDims.rhsIdx
  rw [dif_neg (show ¬(1 : Fin S128x8.rank) ∈ dot_S5000x128_S128x8_S5000x8_1_0_0_1_n_n.rhsBatch by decide), dif_pos (show (1 : Fin S128x8.rank) ∈ dot_S5000x128_S128x8_S5000x8_1_0_0_1_n_n.rhsNonContracting by decide)]
  rfl

/-! ## The block products at an index -/

/-- The block product into a zero accumulator, read at row `p` and column `q`: the sum over the 128 contracted
    coordinates of the left operand's row `p` times the right operand's column `q`. -/
theorem matmulA_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- The block product into a zero accumulator, read at row `p` and column `q`: the sum over the 128 contracted
    coordinates of the left operand's row `p` times the right operand's column `q`. -/
theorem matmulB_apply (l : FVec Ideal S5000x128 .bf16) (r : FVec Ideal S128x8 .bf16) (p : Fin 5000) (q : Fin 8) :
    matmul dot_S5000x128_S128x8_S5000x8_1_0_0_1_n_n none l r (constant (F := Ideal) S5000x8 .f32 0x00000000#32) (ix2 p q)
      = ∑ k : Fin 128, l (ix2 p k) * r (ix2 k q) := by
  show FloatOps.matmul dot_S5000x128_S128x8_S5000x8_1_0_0_1_n_n none l r (constant (F := Ideal) S5000x8 .f32 0x00000000#32) (ix2 p q) = _
  rw [Ideal.matmul_constant_zero_apply, ← Equiv.sum_comp (contrEquiv1 dot_S5000x128_S128x8_S5000x8_1_0_0_1_n_n 128 rfl rfl).symm]
  refine Finset.sum_congr rfl fun k _ => ?_
  have hk := contrEquiv1_symm_val dot_S5000x128_S128x8_S5000x8_1_0_0_1_n_n 128 rfl rfl k
  have el : dot_S5000x128_S128x8_S5000x8_1_0_0_1_n_n.lhsIdx (ix2 p q) ((contrEquiv1 dot_S5000x128_S128x8_S5000x8_1_0_0_1_n_n 128 rfl rfl).symm k) = ix2 p k := funext fun a => Fin.ext (by
    match a with
    | ⟨0, _⟩ => exact lhsB_0 _ _
    | ⟨1, _⟩ => exact (lhsB_1 _ _).trans hk)
  have er : dot_S5000x128_S128x8_S5000x8_1_0_0_1_n_n.rhsIdx (ix2 p q) ((contrEquiv1 dot_S5000x128_S128x8_S5000x8_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The activation a body feeds its product: max(a + b, 0), the bias a row over all rows -/

/-- The zero the bodies clamp against, as an extended real (the word is never evaluated). -/
abbrev z32 : EReal := Ideal.ofBits .f32 0x00000000#32

/-- The clamped, biased block at row `p`, column `k`. -/
theorem act_apply (a : Vec Ideal S5000x128 .f32) (b : Vec Ideal S128 .f32) (p : Fin 5000) (k : Fin 128) :
    (maximumf (addf (shapeCast S5000x128 a shapeCasts_S5000x128_S5000x128)
        (broadcastTo S5000x128 (shapeCast S1x128 b shapeCasts_S128_S1x128) broadcasts_S1x128_S5000x128))
      (broadcast S5000x128 (Scalar.ofBits (F := Ideal) .f32 0x00000000#32)) : FVec Ideal S5000x128 .f32) (ix2 p k)
      = max (a (ix2 p k) + b (ix1 k)) z32 := by
  rw [maximumf_apply, addf_apply, shapeCast_self, broadcastTo_1b_ab_apply, shapeCast_a_1a_apply]
  rfl

/-! ## The three stored values -/

/-- First body: the plain product. -/
theorem pay0_apply (x : Vec Ideal S5000x128 .f32) (w : Vec Ideal S128x128 .f32) (p : Fin 5000) (q : Fin 128) :
    k0_pay1 x w (ix2 p q) = ∑ k : Fin 128, x (ix2 p k) * w (ix2 k q) := by
  unfold k0_pay1
  exact matmulA_apply (truncf .bf16 x bitsLt_bf16_f32) (truncf .bf16 w bitsLt_bf16_f32) p q

/-- Second body: the product of the clamped, biased block with the weight. -/
theorem pay1_apply (a : Vec Ideal S5000x128 .f32) (b : Vec Ideal S128 .f32) (w : Vec Ideal S128x128 .f32) (p : Fin 5000) (q : Fin 128) :
    k1_pay1 a b w (ix2 p q) = ∑ k : Fin 128, max (a (ix2 p k) + b (ix1 k)) z32 * w (ix2 k q) := by
  unfold k1_pay1
  refine (matmulA_apply _ _ p q).trans (Finset.sum_congr rfl fun k _ => ?_)
  rw [truncf_apply, truncf_apply, act_apply]

/-- Third body: the same product into 8 columns, plus the output bias row. -/
theorem pay2_apply (a : Vec Ideal S5000x128 .f32) (b : Vec Ideal S128 .f32) (w : Vec Ideal S128x8 .f32) (bo : Vec Ideal S8 .f32) (p : Fin 5000) (q : Fin 8) :
    k2_pay1 a b w bo (ix2 p q) = (∑ k : Fin 128, max (a (ix2 p k) + b (ix1 k)) z32 * w (ix2 k q)) + bo (ix1 q) := by
  unfold k2_pay1
  rw [addf_apply, broadcastTo_1b_ab_apply, shapeCast_a_1a_apply]
  refine congrArg (· + bo (ix1 q)) ((matmulB_apply _ _ p q).trans (Finset.sum_congr rfl fun k _ => ?_))
  rw [truncf_apply, truncf_apply, act_apply]

end Cert.KernelIdeal.Pay

end
-- ==== Proof.RefLayers.lean ====
/- The reference as four named whole-array functions, and each read at one index at the exact instance.
   `propagate e h` is one graph step: rows of h gathered at every edge's source (self-loops appended), scaled by the
   edge's symmetric degree norm, and summed into the edge's destination row. `act a b` is max(a + b, 0) with the bias b a
   row over all rows. `hidden a b w` is act(a, b) times the 128×128 weight w; `head a b w bo` is act(a, b) times the
   128×8 weight plus the output bias row. The reference's result is
   head(propagate(hidden(propagate(x·W1), b1, W2)), b2, Wfc, bfc). -/
import proofs.«105008_j89919435309559_1_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.ReferenceIdeal.Layers

open Cert.ReferenceIdeal Cert.ReferenceIdeal.Read Idealize.ShloMosaic Idealize.ShloMosaic.ValueIdx

section AnyInstance

variable {F : FTy → Type} [FloatOps F]

/-- One graph step on a feature array `h`, the edges `e` fixed. -/
def propagate (e : (⟨S2x1600000, .i32⟩ : BufTy).Contents (Elt F)) (h : (⟨S100000x128, .f32⟩ : BufTy).Contents (Elt F)) : (⟨S100000x128, .f32⟩ : BufTy).Contents (Elt F) :=
  Host.scatterAdd scatter_S100000x128_S1700000x1_S1700000x128_1_0_0_1 (val_main_v38 (F := F)) (val_main_v39 (F := F) e)
    (mulf (Host.gather gather_S100000x128_S1700000x1_S1700000x128_1_0_n_n_0_1_1128 h (val_main_v33 (F := F) e)) (val_main_v36 (F := F) e))

/-- Bias, then clamp at zero. -/
def act (a : (⟨S100000x128, .f32⟩ : BufTy).Contents (Elt F)) (b : (⟨S128, .f32⟩ : BufTy).Contents (Elt F)) : (⟨S100000x128, .f32⟩ : BufTy).Contents (Elt F) :=
  maximumf (addf a (val_main_v42 (F := F) b)) (val_main_call0_v0 (F := F))

/-- A hidden layer's feature transform: the activation times a square weight. -/
def hidden (a : (⟨S100000x128, .f32⟩ : BufTy).Contents (Elt F)) (b : (⟨S128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none (act a b) w

/-- The output layer: the activation times the 128×8 weight, plus the output bias. -/
def head (a : (⟨S100000x128, .f32⟩ : BufTy).Contents (Elt F)) (b : (⟨S128, .f32⟩ : BufTy).Contents (Elt F)) (w : (⟨S128x8, .f32⟩ : BufTy).Contents (Elt F)) (bo : (⟨S8, .f32⟩ : BufTy).Contents (Elt F)) : (⟨S100000x8, .f32⟩ : BufTy).Contents (Elt F) :=
  addf (Host.dotGeneral dot_S100000x128_S128x8_S100000x8_1_0_0_1_n_n none (act a b) w) (val_main_v65 (F := F) bo)

/-- The reference's result is the composition of the layers (each stage's definition unfolded). -/
theorem result_eq (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F)) (x6 : (⟨S128x8, .f32⟩ : BufTy).Contents (Elt F)) (x7 : (⟨S8, .f32⟩ : BufTy).Contents (Elt F)) :
    val_main_v66 (F := F) x0 x1 x2 x3 x4 x5 x6 x7
      = head (propagate x1 (hidden (propagate x1 (val_main_v27 (F := F) x0 x2)) x3 x4)) x5 x6 x7 := rfl

end AnyInstance

/-! ## At an index, at the exact instance -/

/-- The zero the activation clamps against (the word is never evaluated). -/
abbrev z32 : EReal := Ideal.ofBits .f32 0x00000000#32

theorem act_apply (a : FVec Ideal S100000x128 .f32) (b : FVec Ideal S128 .f32) (r : Fin 100000) (k : Fin 128) :
    act (F := Ideal) a b (ix2 r k) = max (a (ix2 r k) + b (ix1 k)) z32 := by
  show max (a (ix2 r k) + val_main_v42 (F := Ideal) b (ix2 r k)) (val_main_call0_v0 (F := Ideal) (ix2 r k)) = _
  rw [val_main_v42_apply, val_main_v41_apply, val_main_call0_v0_apply]
  have e : idx_main_v41 (idx_main_v42 (ix2 r k)) = ix1 k := funext fun a => by
    match a with | ⟨0, _⟩ => rfl
  rw [e]
  rfl

/-- The host's 128-column product at row `r`, column `q`. -/
theorem mm128_apply (l : FVec Ideal S100000x128 .f32) (w : FVec Ideal S128x128 .f32) (r : Fin 100000) (q : Fin 128) :
    Host.dotGeneral (F := Ideal) dot_S100000x128_S128x128_S100000x128_1_0_0_1_n_n none l w (ix2 r q)
      = ∑ k : Fin 128, l (ix2 r k) * w (ix2 k q) := by
  refine (val_main_v27_apply l w (ix2 r q)).trans (Finset.sum_congr rfl fun k _ => ?_)
  have e1 : lidx_main_v27 (ix2 r q) k = ix2 r k := funext fun a => by
    match a with | ⟨0, _⟩ => rfl | ⟨1, _⟩ => rfl
  have e2 : ridx_main_v27 (ix2 r q) k = ix2 k q := funext fun a => by
    match a with | ⟨0, _⟩ => rfl | ⟨1, _⟩ => rfl
  rw [e1, e2]

/-- The host's 8-column product at row `r`, column `q`. -/
theorem mm8_apply (l : FVec Ideal S100000x128 .f32) (w : FVec Ideal S128x8 .f32) (r : Fin 100000) (q : Fin 8) :
    Host.dotGeneral (F := Ideal) dot_S100000x128_S128x8_S100000x8_1_0_0_1_n_n none l w (ix2 r q)
      = ∑ k : Fin 128, l (ix2 r k) * w (ix2 k q) := by
  simp only [Host.dotGeneral]
  rw [Ideal.dotGeneral_apply, ← Equiv.sum_comp (contrEquiv1 dot_S100000x128_S128x8_S100000x8_1_0_0_1_n_n 128 rfl rfl).symm]
  refine Finset.sum_congr rfl fun k _ => ?_
  have hk := contrEquiv1_symm_val dot_S100000x128_S128x8_S100000x8_1_0_0_1_n_n 128 rfl rfl k
  have el : dot_S100000x128_S128x8_S100000x8_1_0_0_1_n_n.lhsIdx (ix2 r q) ((contrEquiv1 dot_S100000x128_S128x8_S100000x8_1_0_0_1_n_n 128 rfl rfl).symm k) = ix2 r k := funext fun a => Fin.ext (by
    match a with
    | ⟨0, _⟩ => exact lhs_main_v63_0 _ _
    | ⟨1, _⟩ => exact (lhs_main_v63_1 _ _).trans hk)
  have er : dot_S100000x128_S128x8_S100000x8_1_0_0_1_n_n.rhsIdx (ix2 r q) ((contrEquiv1 dot_S100000x128_S128x8_S100000x8_1_0_0_1_n_n 128 rfl rfl).symm k) = ix2 k q := funext fun a => Fin.ext (by
    match a with
    | ⟨0, _⟩ => exact (rhs_main_v63_0 _ _).trans hk
    | ⟨1, _⟩ => exact rhs_main_v63_1 _ _)
  rw [el, er]

theorem hidden_apply (a : FVec Ideal S100000x128 .f32) (b : FVec Ideal S128 .f32) (w : FVec Ideal S128x128 .f32) (r : Fin 100000) (q : Fin 128) :
    hidden (F := Ideal) a b w (ix2 r q) = ∑ k : Fin 128, max (a (ix2 r k) + b (ix1 k)) z32 * w (ix2 k q) := by
  unfold hidden
  refine (mm128_apply _ w r q).trans (Finset.sum_congr rfl fun k _ => ?_)
  rw [act_apply]

theorem head_apply (a : FVec Ideal S100000x128 .f32) (b : FVec Ideal S128 .f32) (w : FVec Ideal S128x8 .f32) (bo : FVec Ideal S8 .f32) (r : Fin 100000) (q : Fin 8) :
    head (F := Ideal) a b w bo (ix2 r q) = (∑ k : Fin 128, max (a (ix2 r k) + b (ix1 k)) z32 * w (ix2 k q)) + bo (ix1 q) := by
  show Host.dotGeneral (F := Ideal) dot_S100000x128_S128x8_S100000x8_1_0_0_1_n_n none (act (F := Ideal) a b) w (ix2 r q) + val_main_v65 (F := Ideal) bo (ix2 r q) = _
  rw [val_main_v65_apply, val_main_v64_apply]
  have e : idx_main_v64 (idx_main_v65 (ix2 r q)) = ix1 q := funext fun a => by
    match a with | ⟨0, _⟩ => rfl
  rw [e]
  refine congrArg (· + bo (ix1 q)) ((mm8_apply _ w r q).trans (Finset.sum_congr rfl fun k _ => ?_))
  rw [act_apply]

end Cert.ReferenceIdeal.Layers

end
-- ==== Proof.Region0.lean ====
/- The first pallas_call's result array: the input's row blocks times the first weight, block by block, is the host's
   whole product x·W1. Grid point t reads rows 5000t … 5000t+4999 of x and the whole weight, and writes the same rows
   of the result; an element of its block at (p, q) is the sum over k of x(5000t+p, k)·W1(k, q), which is the whole
   product's element at (5000t+p, q). The twenty row blocks cover the array. -/
import proofs.«105008_j89919435309559_1_alg».proof.Proof.Gen.KernelIdeal.Frame
import proofs.«105008_j89919435309559_1_alg».proof.Proof.KernelPayloads
import proofs.«105008_j89919435309559_1_alg».proof.Proof.RefLayers
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The arrays as the region finds them, and the blocks a point reads, at their literal shapes. -/
abbrev xarr (c : Dev nD) : Vec Ideal S100000x128 .f32 := V c main_arg0
abbrev warr (c : Dev nD) : Vec Ideal S128x128 .f32 := V c main_arg2
abbrev xblk (c : Dev nD) (t : Fin cfg0.N) : Vec Ideal S5000x128 .f32 := iblk0 V c 0 t
abbrev wblk (c : Dev nD) (t : Fin cfg0.N) : Vec Ideal S128x128 .f32 := iblk0 V c 1 t

/-- The block index maps over the grid: the input and the result move down the rows with the point; the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 20 := lt_of_lt_of_eq t.isLt N_0

/-- Row `p` of point `t`'s block is row `5000 t + p` of the array. -/
abbrev row (t : Fin cfg0.N) (p : Fin 5000) : Fin 100000 := ⟨5000 * t.val + p.val, by have := t_lt t; have := p.isLt; omega⟩

/-- The input block read at (p, k) is the input array at (5000 t + p, k). -/
theorem xblk_apply (c : Dev nD) (t : Fin cfg0.N) (p : Fin 5000) (k : Fin 128) :
    xblk V c t (ix2 p k) = xarr V c (ix2 (row t p) k) := by
  obtain ⟨e0, e1, -, -, -, -⟩ := idx_facts t
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The weight's block is the whole weight. -/
theorem wblk_apply (c : Dev nD) (t : Fin cfg0.N) (k : Fin 128) (q : Fin 128) :
    wblk V c t (ix2 k q) = warr V c (ix2 k q) := by
  obtain ⟨-, -, e2, e3, -, -⟩ := idx_facts t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Where the result's block sits in the result array. -/
theorem oemb (t : Fin cfg0.N) (p : Fin 5000) (q : Fin 128) :
    ((cfg0.win 2).blk t).view.emb (ix2 p q) = ix2 (row t p) q := by
  obtain ⟨-, -, -, -, e4, e5⟩ := idx_facts t
  refine funext fun a => Fin.ext ?_
  match a with
  | ⟨0, _⟩ => show win0_2.index t (0 : Fin 2) * 5000 + 1 * p.val = 5000 * t.val + p.val; rw [e4]; omega
  | ⟨1, _⟩ => show win0_2.index t (1 : Fin 2) * 128 + 1 * q.val = q.val; rw [e5]; omega

/-- What point `t` writes back is block `t` of the whole product. -/
theorem flushed_eq (c : Dev nD) (t : Fin cfg0.N) :
    (dat0 V c).flushed 2 t = ((cfg0.win 2).blk t).view.read (Elt Ideal)
      (Cert.ReferenceIdeal.Read.val_main_v27 (F := Ideal) (xarr V c) (warr V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k0_pay1 (xblk V c t) (wblk V c t) (ix2 p q)
    = Cert.ReferenceIdeal.Read.val_main_v27 (F := Ideal) (xarr V c) (warr V c) (((cfg0.win 2).blk t).view.emb (ix2 p q))
  rw [oemb t p q]
  refine (Pay.pay0_apply (xblk V c t) (wblk V c t) p q).trans (Eq.trans ?_ (Cert.ReferenceIdeal.Layers.mm128_apply (xarr V c) (warr V c) (row t p) q).symm)
  refine Finset.sum_congr rfl fun k _ => ?_
  rw [xblk_apply V c t p k, wblk_apply V c t k q]

/-- Every index of the result array is in some point's block. -/
theorem cover (i : S100000x128.Idx) : ∃ t : Fin cfg0.N, (cfg0.win 2).flush t = true ∧ i ∈ ((cfg0.win 2).blk t).view.set := by
  have h0 : (i 0).val < 100000 := (i 0).isLt
  have h1 : (i 1).val < 128 := (i 1).isLt
  let t : Fin cfg0.N := ⟨(i 0).val / 5000, by rw [show cfg0.N = 20 from N_0]; omega⟩
  obtain ⟨-, -, -, -, e4, e5⟩ := idx_facts t
  refine ⟨t, flush0_2 t, ?_⟩
  show i ∈ ((View.whole main_v27).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    rw [e4]; show (i 0).val / 5000 * 5000 ≤ (i 0).val ∧ (i 0).val < (i 0).val / 5000 * 5000 + 5000; omega
  | ⟨1, _⟩ =>
    show win0_2.index t (1 : Fin 2) * 128 ≤ (i 1).val ∧ (i 1).val < win0_2.index t (1 : Fin 2) * 128 + 128
    rw [e5]; omega

/-- The result array after the region: the host's whole product of the input and the weight as the region found them. -/
theorem final (c : Dev nD) :
    (dat0 V c).arrAt 2 cfg0.N = Cert.ReferenceIdeal.Read.val_main_v27 (F := Ideal) (xarr V c) (warr V c) :=
  (dat0 V c).arrAt_eq_of_cover 2 _ (fun t _ => flushed_eq V c t) (cover)

end Cert.KernelIdeal.Region0

end
-- ==== Proof.Region1.lean ====
/- The second pallas_call's result array: every row block of the propagated features, biased, clamped at zero and
   multiplied by the second weight, is the host's hidden layer on the whole array. Grid point t reads rows
   5000t … 5000t+4999 of the features, the whole bias row and the whole weight; its block's element at (p, q) is the sum
   over k of max(a(5000t+p, k) + b(k), 0)·W(k, q), which is the hidden layer's element at (5000t+p, q). The twenty
   row blocks cover the array. -/
import proofs.«105008_j89919435309559_1_alg».proof.Proof.Gen.KernelIdeal.Frame
import proofs.«105008_j89919435309559_1_alg».proof.Proof.KernelPayloads
import proofs.«105008_j89919435309559_1_alg».proof.Proof.RefLayers
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The arrays as the region finds them, and the blocks a point reads, at their literal shapes. -/
abbrev feat (c : Dev nD) : Vec Ideal S100000x128 .f32 := V c main_v40
abbrev bias (c : Dev nD) : Vec Ideal S128 .f32 := V c main_arg3
abbrev wt (c : Dev nD) : Vec Ideal S128x128 .f32 := V c main_arg4
abbrev featBlk (c : Dev nD) (t : Fin cfg1.N) : Vec Ideal S5000x128 .f32 := iblk1 V c 0 t
abbrev biasBlk (c : Dev nD) (t : Fin cfg1.N) : Vec Ideal S128 .f32 := iblk1 V c 1 t
abbrev wtBlk (c : Dev nD) (t : Fin cfg1.N) : Vec Ideal S128x128 .f32 := iblk1 V c 2 t

/-- The block index maps over the grid: the features and the result move down the rows with the point; the bias and the
    weight stay. -/
theorem idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 20 := lt_of_lt_of_eq t.isLt N_1

/-- Row `p` of point `t`'s block is row `5000 t + p` of the array. -/
abbrev row (t : Fin cfg1.N) (p : Fin 5000) : Fin 100000 := ⟨5000 * t.val + p.val, by have := t_lt t; have := p.isLt; omega⟩

/-- The features' block read at (p, k) is the feature array at (5000 t + p, k). -/
theorem featBlk_apply (c : Dev nD) (t : Fin cfg1.N) (p : Fin 5000) (k : Fin 128) :
    featBlk V c t (ix2 p k) = feat V c (ix2 (row t p) k) := by
  obtain ⟨e0, e1, -, -, -, -, -⟩ := idx_facts t
  show V c main_v40 (((cfg1.win 0).blk t).view.emb (ix2 p k)) = V c main_v40 (ix2 (row t p) k)
  refine congrArg (V c main_v40) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- The bias's block is the whole bias. -/
theorem biasBlk_apply (c : Dev nD) (t : Fin cfg1.N) (k : Fin 128) :
    biasBlk V c t (ix1 k) = bias V c (ix1 k) := by
  obtain ⟨-, -, e2, -, -, -, -⟩ := idx_facts t
  show V c main_arg3 (((cfg1.win 1).blk t).view.emb (ix1 k)) = V c main_arg3 (ix1 k)
  refine congrArg (V c main_arg3) (funext fun a => Fin.ext ?_)
  match a with
  | ⟨0, _⟩ => show win1_1.index t (0 : Fin 1) * 128 + 1 * k.val = k.val; rw [e2]; omega

/-- The weight's block is the whole weight. -/
theorem wtBlk_apply (c : Dev nD) (t : Fin cfg1.N) (k : Fin 128) (q : Fin 128) :
    wtBlk V c t (ix2 k q) = wt V c (ix2 k q) := by
  obtain ⟨-, -, -, e3, e4, -, -⟩ := idx_facts t
  show V c main_arg4 (((cfg1.win 2).blk t).view.emb (ix2 k q)) = V c main_arg4 (ix2 k q)
  refine congrArg (V c main_arg4) (funext fun a => Fin.ext ?_)
  match a with
  | ⟨0, _⟩ => show win1_2.index t (0 : Fin 2) * 128 + 1 * k.val = k.val; rw [e3]; omega
  | ⟨1, _⟩ => show win1_2.index t (1 : Fin 2) * 128 + 1 * q.val = q.val; rw [e4]; omega

/-- Where the result's block sits in the result array. -/
theorem oemb (t : Fin cfg1.N) (p : Fin 5000) (q : Fin 128) :
    ((cfg1.win 3).blk t).view.emb (ix2 p q) = ix2 (row t p) q := by
  obtain ⟨-, -, -, -, -, e5, e6⟩ := idx_facts t
  refine funext fun a => Fin.ext ?_
  match a with
  | ⟨0, _⟩ => show win1_3.index t (0 : Fin 2) * 5000 + 1 * p.val = 5000 * t.val + p.val; rw [e5]; omega
  | ⟨1, _⟩ => show win1_3.index t (1 : Fin 2) * 128 + 1 * q.val = q.val; rw [e6]; omega

/-- What point `t` writes back is block `t` of the hidden layer on the whole arrays. -/
theorem flushed_eq (c : Dev nD) (t : Fin cfg1.N) :
    (dat1 V c).flushed 3 t = ((cfg1.win 3).blk t).view.read (Elt Ideal)
      (Cert.ReferenceIdeal.Layers.hidden (F := Ideal) (feat V c) (bias V c) (wt V c)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128) hz1, View.ld_unit_zero (S := S128x128) hz2]
  funext j
  obtain ⟨p, q, rfl⟩ : ∃ (p : Fin 5000) (q : Fin 128), j = ix2 p q := ⟨j 0, j 1, eq_ix2 j⟩
  show k1_pay1 (featBlk V c t) (biasBlk V c t) (wtBlk V c t) (ix2 p q)
    = Cert.ReferenceIdeal.Layers.hidden (F := Ideal) (feat V c) (bias V c) (wt V c) (((cfg1.win 3).blk t).view.emb (ix2 p q))
  rw [oemb t p q]
  refine (Pay.pay1_apply (featBlk V c t) (biasBlk V c t) (wtBlk V c t) p q).trans
    (Eq.trans ?_ (Cert.ReferenceIdeal.Layers.hidden_apply (feat V c) (bias V c) (wt V c) (row t p) q).symm)
  refine Finset.sum_congr rfl fun k _ => ?_
  rw [featBlk_apply V c t p k, biasBlk_apply V c t k, wtBlk_apply V c t k q]

/-- Every index of the result array is in some point's block. -/
theorem cover (i : S100000x128.Idx) : ∃ t : Fin cfg1.N, (cfg1.win 3).flush t = true ∧ i ∈ ((cfg1.win 3).blk t).view.set := by
  have h0 : (i 0).val < 100000 := (i 0).isLt
  have h1 : (i 1).val < 128 := (i 1).isLt
  let t : Fin cfg1.N := ⟨(i 0).val / 5000, by rw [show cfg1.N = 20 from N_1]; omega⟩
  obtain ⟨-, -, -, -, -, e5, e6⟩ := idx_facts t
  refine ⟨t, flush1_3 t, ?_⟩
  show i ∈ ((View.whole main_v41).slice (win1_3.rect t)).set
  rw [View.set_slice_whole, Rect.mem_set_unit]
  intro a
  match a with
  | ⟨0, _⟩ =>
    show win1_3.index t (0 : Fin 2) * 5000 ≤ (i 0).val ∧ (i 0).val < win1_3.index t (0 : Fin 2) * 5000 + 5000
    rw [e5]; show (i 0).val / 5000 * 5000 ≤ (i 0).val ∧ (i 0).val < (i 0).val / 5000 * 5000 + 5000; omega
  | ⟨1, _⟩ =>
    show win1_3.index t (1 : Fin 2) * 128 ≤ (i 1).val ∧ (i 1).val < win1_3.index t (1 : Fin 2) * 128 + 128
    rw [e6]; omega

/-- The result array after the region: the host's hidden layer of the features, the bias and the weight as the region
    found them. -/
theorem final (c : Dev nD) :
    (dat1 V c).arrAt 3 cfg1.N = Cert.ReferenceIdeal.Layers.hidden (F := Ideal) (feat V c) (bias V c) (wt V c) :=
  (dat1 V c).arrAt_eq_of_cover 3 _ (fun t _ => flushed_eq V c t) (cover)

end Cert.KernelIdeal.Region1

end
-- ==== Proof.Region2.lean ====
/- The third pallas_call's result array: every row block of the twice-propagated features, biased, clamped at zero,
   multiplied by the 128×8 output weight and shifted by the output bias, is the host's output layer on the whole array.
   Grid point t reads rows 5000t … 5000t+4999 of the features and the whole of both biases and of the weight; its
   block's element at (p, q) is the sum over k of max(a(5000t+p, k) + b(k), 0)·W(k, q), plus bo(q), which is the output
   layer's element at (5000t+p, q). The twenty row blocks cover the [100000, 8] result. -/
import proofs.«105008_j89919435309559_1_alg».proof.Proof.Gen.KernelIdeal.Frame
import proofs.«105008_j89919435309559_1_alg».proof.Proof.KernelPayloads
import proofs.«105008_j89919435309559_1_alg».proof.Proof.RefLayers
import Idealize.ShloMosaic.Lib.Pipeline.Value

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The arrays as the region finds them, and the blocks a point reads, at their literal shapes. -/
abbrev feat (c : Dev nD) : Vec Ideal S100000x128 .f32 := V c main_v54
abbrev bias (c : Dev nD) : Vec Ideal S128 .f32 := V c main_arg5
abbrev wt (c : Dev nD) : Vec Ideal S128x8 .f32 := V c main_arg6
abbrev obias (c : Dev nD) : Vec Ideal S8 .f32 := V c main_arg7
abbrev featBlk (c : Dev nD) (t : Fin cfg2.N) : Vec Ideal S5000x128 .f32 := iblk2 V c 0 t
abbrev biasBlk (c : Dev nD) (t : Fin cfg2.N) : Vec Ideal S128 .f32 := iblk2 V c 1 t
abbrev wtBlk (c : Dev nD) (t : Fin cfg2.N) : Vec Ideal S128x8 .f32 := iblk2 V c 2 t
abbrev obiasBlk (c : Dev nD) (t : Fin cfg2.N) : Vec Ideal S8 .f32 := iblk2 V c 3 t

/-- The block index maps over the grid: the features and the result move down the rows with the point; both biases and
    the weight stay. -/
theorem idx_facts : ∀ t : Fin cfg2.N, win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

theorem t_lt (t : Fin cfg2.N) : t.val < 20 := lt_of_lt_of_eq t.isLt N_2

/-- Row `p` of point `t`'s block is row `5000 t + p` of the array. -/
abbrev row (t : Fin cfg2.N) (p : Fin 5000) : Fin 100000 := ⟨5000 * t.val + p.val, by have := t_lt t; have := p.isLt; omega⟩

/-- The features' block read at (p, k) is the feature array at (5000 t + p, k). -/
theorem featBlk_apply (c : Dev nD) (t : Fin cfg2.N) (p : Fin 5000) (k : Fin 128) :
    featBlk V c t (ix2 p k) = feat V c (ix2 (row t p) k) := by
  obtain ⟨e0, e1, -, -, -, -, -, -⟩ := idx_facts t
  show V c main_v54 (((cfg2.win 0).blk t).view.emb (ix2 p k)) = V c main_v54 (ix2 (row t p) k)
  refine congrArg (V c main_v54) (funext fun a => Fin.ext ?_)
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- The hidden bias's block is the whole bias. -/
theorem biasBlk_apply (c : Dev nD) (t : Fin cfg2.N) (k : Fin 128) :
    biasBlk V c t (ix1 k) = bias V c (ix1 k) := by
  obtain ⟨-, -, e2, -, -, -, -, -⟩ := idx_facts t
  show V c main_arg5 (((cfg2.win 1).blk t).view.emb (ix1 k)) = V c main_arg5 (ix1 k)
  refine congrArg (V c main_arg5) (funext fun a => Fin.ext ?_)
  match a with
  | ⟨0, _⟩ => show win2_1.index t (0 : Fin 1) * 128 + 1 * k.val = k.val; rw [e2]; omega

/-- The weight's block is the whole weight. -/
theorem wtBlk_apply (c : Dev nD) (t : Fin cfg2.N) (k : Fin 128) (q : Fin 8) :
    wtBlk V c t (ix2 k q) = wt V c (ix2 k q) := by
  obtain ⟨-, -, -, e3, e4, -, -, -⟩ := idx_facts t
  show V c main_arg6 (((cfg2.win 2).blk t).view.emb (ix2 k q)) = V c main_arg6 (ix2 k q)
  refine congrArg (V c main_arg6) (funext fun a => Fin.ext ?_)
  match a with
  | ⟨0, _⟩ => show win2_2.index t (0 : Fin 2) * 128 + 1 * k.val = k.val; rw [e3]; omega
  | ⟨1, _⟩ => show win2_2.index t (1 : Fin 2) * 8 + 1 * q.val = q.val; rw [e4]; omega

/-- The output bias's block is the whole output bias. -/
theorem obiasBlk_apply (c : Dev nD) (t : Fin cfg2.N) (q : Fin 8) :
    obiasBlk V c t (ix1 q) = obias V c (ix1 q) := by
  obtain ⟨-, -, -, -, -, e5, -, -⟩ := idx_facts t
  show V c main_arg7 (((cfg2.win 3).blk t).view.emb (ix1 q)) = V c main_arg7 (ix1 q)
  refine congrArg (V c main_arg7) (funext fun a => Fin.ext ?_)
  match a with
  | ⟨0, _⟩ => show win2_3.index t (0 : Fin 1) * 8 + 1 * q.val = q.val; rw [e5]; omega

/-- Where the result's block sits in the result array. -/
theorem oemb (t : Fin cfg2.N) (p : Fin 5000) (q : Fin 8) :
    ((cfg2.win 4).blk t).view.emb (ix2 p q) = ix2 (row t p) q := by
  obtain ⟨-, -, -, -, -, -, e6, e7⟩ := idx_facts t
  refine funext fun a => Fin.ext ?_
  match a with
  | ⟨0, _⟩ => show win2_4.index t (0 : Fin 2) * 5000 + 1 * p.val = 5000 * t.val + p.val; rw [e6]; omega
  | ⟨1, _⟩ => show win2_4.index t (1 : Fin 2) * 8 + 1 * q.val = q.val; rw [e7]; omega

/-- What point `t` writes back is block `t` of the output layer on the whole arrays. -/
theorem flushed_eq (c : Dev nD) (t : Fin cfg2.N) :
    (dat2 V c).flushed 4 t = ((cfg2.win 4).blk t).view.read (Elt Ideal)
      (Cert.ReferenceIdeal.Layers.head (F := Ideal) (feat V c) (bias V c) (wt V c) (obias V c)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S128) hz1, View.ld_unit_zero (S := S128x8) hz2,
    View.ld_unit_zero (S := S8) hz1]
  funext j
  obtain ⟨p, q, rfl⟩ : ∃ (p : Fin 5000) (q : Fin 8), j = ix2 p q := ⟨j 0, j 1, eq_ix2 j⟩
  show k2_pay1 (featBlk V c t) (biasBlk V c t) (wtBlk V c t) (obiasBlk V c t) (ix2 p q)
    = Cert.ReferenceIdeal.Layers.head (F := Ideal) (feat V c) (bias V c) (wt V c) (obias V c) (((cfg2.win 4).blk t).view.emb (ix2 p q))
  rw [oemb t p q]
  refine (Pay.pay2_apply (featBlk V c t) (biasBlk V c t) (wtBlk V c t) (obiasBlk V c t) p q).trans
    (Eq.trans ?_ (Cert.ReferenceIdeal.Layers.head_apply (feat V c) (bias V c) (wt V c) (obias V c) (row t p) q).symm)
  rw [obiasBlk_apply V c t q]
  refine congrArg (· + obias V c (ix1 q)) (Finset.sum_congr rfl fun k _ => ?_)
  rw [featBlk_apply V c t p k, biasBlk_apply V c t k, wtBlk_apply V c t k q]

/-- Every index of the result array is in some point's block. -/
theorem cover (i : S100000x8.Idx) : ∃ t : Fin cfg2.N, (cfg2.win 4).flush t = true ∧ i ∈ ((cfg2.win 4).blk t).view.set := by
  have h0 : (i 0).val < 100000 := (i 0).isLt
  have h1 : (i 1).val < 8 := (i 1).isLt
  let t : Fin cfg2.N := ⟨(i 0).val / 5000, by rw [show cfg2.N = 20 from N_2]; omega⟩
  obtain ⟨-, -, -, -, -, -, e6, e7⟩ := idx_facts t
  refine ⟨t, flush2_4 t, ?_⟩
  show i ∈ ((View.whole main_v55).slice (win2_4.rect t)).set
  rw [View.set_slice_whole, Rect.mem_set_unit]
  intro a
  match a with
  | ⟨0, _⟩ =>
    show win2_4.index t (0 : Fin 2) * 5000 ≤ (i 0).val ∧ (i 0).val < win2_4.index t (0 : Fin 2) * 5000 + 5000
    rw [e6]; show (i 0).val / 5000 * 5000 ≤ (i 0).val ∧ (i 0).val < (i 0).val / 5000 * 5000 + 5000; omega
  | ⟨1, _⟩ =>
    show win2_4.index t (1 : Fin 2) * 8 ≤ (i 1).val ∧ (i 1).val < win2_4.index t (1 : Fin 2) * 8 + 8
    rw [e7]; omega

/-- The result array after the region: the host's output layer of the features, the biases and the weight as the region
    found them. -/
theorem final (c : Dev nD) :
    (dat2 V c).arrAt 4 cfg2.N = Cert.ReferenceIdeal.Layers.head (F := Ideal) (feat V c) (bias V c) (wt V c) (obias V c) :=
  (dat2 V c).arrAt_eq_of_cover 4 _ (fun t _ => flushed_eq V c t) (cover)

end Cert.KernelIdeal.Region2

end
-- ==== Proof.KernelFold.lean ====
/- The result array read back through the run. Between the launch and the return the device's buffers pass six
   boundaries: a stretch of host operations, a pallas_call, a stretch, a pallas_call, a stretch, a pallas_call. A host
   stretch leaves every buffer it does not write as it was and gives each buffer it writes its operation's value; a
   pallas_call changes only its result array, which ends at the layer the region computes on what it found. Reading
   the final result array back boundary by boundary: it is the output layer of the second propagation of the hidden
   layer of the first propagation of x·W1, the edge list and the seven float arguments as launched — the reference's
   own composition. -/
import proofs.«105008_j89919435309559_1_alg».proof.Proof.Gen.KernelIdeal.Frame
import proofs.«105008_j89919435309559_1_alg».proof.Proof.FoldKeeps
import proofs.«105008_j89919435309559_1_alg».proof.Proof.Region0
import proofs.«105008_j89919435309559_1_alg».proof.Proof.Region1
import proofs.«105008_j89919435309559_1_alg».proof.Proof.Region2

set_option maxRecDepth 16384

noncomputable section

namespace Cert.KernelIdeal.Fold

open Cert.KernelIdeal Cert.KernelIdeal.Gen Cert.KernelIdeal.FoldKeeps Idealize.ShloMosaic Idealize.ShloMosaic.TcCoe Idealize.SL.Sem

variable (m : (ℓ : Loc nD τ sig) → Buf (Elt Ideal) ℓ) (ρ : Dev nD → PrngReg)

/-! ## The float arguments where a region reads them: still the launch contents

No host operation and no pallas_call writes an argument, so its contents at any boundary walk back to the launch. -/

theorem arg0_at1 (c : Dev nD) : W1 m ρ c (Proc.devRef .tc main_arg0) = m ((c.tc : Thread nD τ).loc main_arg0) := keep0_arg0 m ρ c
theorem arg2_at1 (c : Dev nD) : W1 m ρ c (Proc.devRef .tc main_arg2) = m ((c.tc : Thread nD τ).loc main_arg2) := keep0_arg2 m ρ c

theorem arg3_at3 (c : Dev nD) : W3 m ρ c (Proc.devRef .tc main_arg3) = m ((c.tc : Thread nD τ).loc main_arg3) :=
  ((keep1_arg3 m ρ c).trans (W2_of_ne m ρ c main_arg3 (by decide))).trans (keep0_arg3 m ρ c)
theorem arg4_at3 (c : Dev nD) : W3 m ρ c (Proc.devRef .tc main_arg4) = m ((c.tc : Thread nD τ).loc main_arg4) :=
  ((keep1_arg4 m ρ c).trans (W2_of_ne m ρ c main_arg4 (by decide))).trans (keep0_arg4 m ρ c)

theorem arg5_at5 (c : Dev nD) : W5 m ρ c (Proc.devRef .tc main_arg5) = m ((c.tc : Thread nD τ).loc main_arg5) :=
  ((((keep2_arg5 m ρ c).trans (W4_of_ne m ρ c main_arg5 (by decide))).trans (keep1_arg5 m ρ c)).trans
    (W2_of_ne m ρ c main_arg5 (by decide))).trans (keep0_arg5 m ρ c)
theorem arg6_at5 (c : Dev nD) : W5 m ρ c (Proc.devRef .tc main_arg6) = m ((c.tc : Thread nD τ).loc main_arg6) :=
  ((((keep2_arg6 m ρ c).trans (W4_of_ne m ρ c main_arg6 (by decide))).trans (keep1_arg6 m ρ c)).trans
    (W2_of_ne m ρ c main_arg6 (by decide))).trans (keep0_arg6 m ρ c)
theorem arg7_at5 (c : Dev nD) : W5 m ρ c (Proc.devRef .tc main_arg7) = m ((c.tc : Thread nD τ).loc main_arg7) :=
  ((((keep2_arg7 m ρ c).trans (W4_of_ne m ρ c main_arg7 (by decide))).trans (keep1_arg7 m ρ c)).trans
    (W2_of_ne m ρ c main_arg7 (by decide))).trans (keep0_arg7 m ρ c)

/-! ## The edge sources, the edge destinations and the edge norms

The first stretch computes them from the edge list; nothing after it writes them. -/

theorem src_at1 (c : Dev nD) : W1 m ρ c (Proc.devRef .tc main_v5)
    = Cert.ReferenceIdeal.Read.val_main_v5 (F := Ideal) (m ((c.tc : Thread nD τ).loc main_arg1)) := by
  show StableHlo.after hostOps0 (W0 m ρ c) (Proc.devRef .tc main_v5) = _
  dsimp only [hostOps0]
  after_results_simp
  rfl
theorem dst_at1 (c : Dev nD) : W1 m ρ c (Proc.devRef .tc main_v6)
    = Cert.ReferenceIdeal.Read.val_main_v6 (F := Ideal) (m ((c.tc : Thread nD τ).loc main_arg1)) := by
  show StableHlo.after hostOps0 (W0 m ρ c) (Proc.devRef .tc main_v6) = _
  dsimp only [hostOps0]
  after_results_simp
  rfl
theorem norm_at1 (c : Dev nD) : W1 m ρ c (Proc.devRef .tc main_v26)
    = Cert.ReferenceIdeal.Read.val_main_v26 (F := Ideal) (m ((c.tc : Thread nD τ).loc main_arg1)) := by
  show StableHlo.after hostOps0 (W0 m ρ c) (Proc.devRef .tc main_v26) = _
  dsimp only [hostOps0]
  after_results_simp
  rfl

theorem src_at2 (c : Dev nD) : W2 m ρ c (Proc.devRef .tc main_v5)
    = Cert.ReferenceIdeal.Read.val_main_v5 (F := Ideal) (m ((c.tc : Thread nD τ).loc main_arg1)) :=
  (W2_of_ne m ρ c main_v5 (by decide)).trans (src_at1 m ρ c)
theorem dst_at2 (c : Dev nD) : W2 m ρ c (Proc.devRef .tc main_v6)
    = Cert.ReferenceIdeal.Read.val_main_v6 (F := Ideal) (m ((c.tc : Thread nD τ).loc main_arg1)) :=
  (W2_of_ne m ρ c main_v6 (by decide)).trans (dst_at1 m ρ c)
theorem norm_at2 (c : Dev nD) : W2 m ρ c (Proc.devRef .tc main_v26)
    = Cert.ReferenceIdeal.Read.val_main_v26 (F := Ideal) (m ((c.tc : Thread nD τ).loc main_arg1)) :=
  (W2_of_ne m ρ c main_v26 (by decide)).trans (norm_at1 m ρ c)

theorem src_at4 (c : Dev nD) : W4 m ρ c (Proc.devRef .tc main_v5)
    = Cert.ReferenceIdeal.Read.val_main_v5 (F := Ideal) (m ((c.tc : Thread nD τ).loc main_arg1)) :=
  ((W4_of_ne m ρ c main_v5 (by decide)).trans (keep1_v5 m ρ c)).trans (src_at2 m ρ c)
theorem dst_at4 (c : Dev nD) : W4 m ρ c (Proc.devRef .tc main_v6)
    = Cert.ReferenceIdeal.Read.val_main_v6 (F := Ideal) (m ((c.tc : Thread nD τ).loc main_arg1)) :=
  ((W4_of_ne m ρ c main_v6 (by decide)).trans (keep1_v6 m ρ c)).trans (dst_at2 m ρ c)
theorem norm_at4 (c : Dev nD) : W4 m ρ c (Proc.devRef .tc main_v26)
    = Cert.ReferenceIdeal.Read.val_main_v26 (F := Ideal) (m ((c.tc : Thread nD τ).loc main_arg1)) :=
  ((W4_of_ne m ρ c main_v26 (by decide)).trans (keep1_v26 m ρ c)).trans (norm_at2 m ρ c)

/-! ## The five computed arrays, each from the one before -/

/-- After the first pallas_call: x·W1. -/
theorem hw_at2 (c : Dev nD) : W2 m ρ c (Proc.devRef .tc main_v27)
    = Cert.ReferenceIdeal.Read.val_main_v27 (F := Ideal) (m ((c.tc : Thread nD τ).loc main_arg0)) (m ((c.tc : Thread nD τ).loc main_arg2)) := by
  refine (W2_arr m ρ c 2).trans ((Region0.final (V1 m ρ) c).trans ?_)
  show Cert.ReferenceIdeal.Read.val_main_v27 (F := Ideal) (W1 m ρ c (Proc.devRef .tc main_arg0)) (W1 m ρ c (Proc.devRef .tc main_arg2)) = _
  rw [arg0_at1 m ρ c, arg2_at1 m ρ c]

/-- After the second stretch: one propagation of what the first pallas_call left. -/
theorem agg_at3 (c : Dev nD) : W3 m ρ c (Proc.devRef .tc main_v40)
    = Cert.ReferenceIdeal.Layers.propagate (F := Ideal) (m ((c.tc : Thread nD τ).loc main_arg1)) (W2 m ρ c (Proc.devRef .tc main_v27)) := by
  show StableHlo.after hostOps1 (W2 m ρ c) (Proc.devRef .tc main_v40) = _
  dsimp only [hostOps1]
  after_results_simp
  rw [src_at2 m ρ c, dst_at2 m ρ c, norm_at2 m ρ c]
  generalize W2 m ρ c (Proc.devRef .tc main_v27) = hw
  rfl

/-- After the second pallas_call: the hidden layer of that. -/
theorem hw_at4 (c : Dev nD) : W4 m ρ c (Proc.devRef .tc main_v41)
    = Cert.ReferenceIdeal.Layers.hidden (F := Ideal) (W3 m ρ c (Proc.devRef .tc main_v40))
        (m ((c.tc : Thread nD τ).loc main_arg3)) (m ((c.tc : Thread nD τ).loc main_arg4)) := by
  refine (W4_arr m ρ c 3).trans ((Region1.final (V3 m ρ) c).trans ?_)
  show Cert.ReferenceIdeal.Layers.hidden (F := Ideal) (W3 m ρ c (Proc.devRef .tc main_v40))
    (W3 m ρ c (Proc.devRef .tc main_arg3)) (W3 m ρ c (Proc.devRef .tc main_arg4)) = _
  rw [arg3_at3 m ρ c, arg4_at3 m ρ c]

/-- After the third stretch: one propagation of what the second pallas_call left. -/
theorem agg_at5 (c : Dev nD) : W5 m ρ c (Proc.devRef .tc main_v54)
    = Cert.ReferenceIdeal.Layers.propagate (F := Ideal) (m ((c.tc : Thread nD τ).loc main_arg1)) (W4 m ρ c (Proc.devRef .tc main_v41)) := by
  show StableHlo.after hostOps2 (W4 m ρ c) (Proc.devRef .tc main_v54) = _
  dsimp only [hostOps2]
  after_results_simp
  rw [src_at4 m ρ c, dst_at4 m ρ c, norm_at4 m ρ c]
  generalize W4 m ρ c (Proc.devRef .tc main_v41) = hw
  rfl

/-- After the third pallas_call: the output layer of that. -/
theorem out_at6 (c : Dev nD) : W6 m ρ c (Proc.devRef .tc main_v55)
    = Cert.ReferenceIdeal.Layers.head (F := Ideal) (W5 m ρ c (Proc.devRef .tc main_v54))
        (m ((c.tc : Thread nD τ).loc main_arg5)) (m ((c.tc : Thread nD τ).loc main_arg6)) (m ((c.tc : Thread nD τ).loc main_arg7)) := by
  refine (W6_arr m ρ c 4).trans ((Region2.final (V5 m ρ) c).trans ?_)
  show Cert.ReferenceIdeal.Layers.head (F := Ideal) (W5 m ρ c (Proc.devRef .tc main_v54))
    (W5 m ρ c (Proc.devRef .tc main_arg5)) (W5 m ρ c (Proc.devRef .tc main_arg6)) (W5 m ρ c (Proc.devRef .tc main_arg7)) = _
  rw [arg5_at5 m ρ c, arg6_at5 m ρ c, arg7_at5 m ρ c]

/-! ## The result -/

/-- The result array at the last boundary is the reference's result on the launch arguments. -/
theorem result (c : Dev nD) : W6 m ρ c (Proc.devRef .tc main_v55)
    = Cert.ReferenceIdeal.Read.val_main_v66 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  rw [Cert.ReferenceIdeal.Layers.result_eq, out_at6 m ρ c, agg_at5 m ρ c, hw_at4 m ρ c, agg_at3 m ρ c, hw_at2 m ρ c]

end Cert.KernelIdeal.Fold

end
-- ==== Proof.lean ====
/- A two-layer graph convolution with a linear head, over 100000 nodes and 1600000 edges: the kernel computes the three
   feature transforms (x·W1; max(agg1 + b1, 0)·W2; max(agg2 + b2, 0)·Wfc + bfc) in three pallas_calls over twenty row
   blocks of 5000 nodes each, and leaves the degree norms and the two gather–scale–scatter propagation steps to the
   host, exactly as the reference does them. Over the extended reals the bf16 casts in front of each block product are
   the identity and a block product into a zero accumulator is the plain sum over the 128 contracted coordinates, so
   each pallas_call's result array is the reference's layer on the whole array (Region0, Region1, Region2: a block's
   element is the whole product's element at the block's row offset, and the twenty blocks cover the array). The host
   stretches between the calls apply the reference's own operations to those arrays (KernelFold), so the kernel's
   result is the reference's composition head(propagate(hidden(propagate(x·W1)))) of the launch arguments, term for term;
   no algebraic law beyond reading both products as the same sum is used, and finiteness of the inputs is never opened.
   The two kernel frames are the generated ones; the reference's frame is its generated run with the result dropped;
   the idealization rewrote nothing, so there is nothing to preserve. -/
import proofs.«105008_j89919435309559_1_alg».proof.Defs
import proofs.«105008_j89919435309559_1_alg».proof.Proof.Gen.Kernel
import proofs.«105008_j89919435309559_1_alg».proof.Proof.Gen.Kernel.Skeleton
import proofs.«105008_j89919435309559_1_alg».proof.Proof.Gen.Kernel.Launch
import proofs.«105008_j89919435309559_1_alg».proof.Proof.Gen.Kernel.Points
import proofs.«105008_j89919435309559_1_alg».proof.Proof.Gen.Kernel.Frame
import proofs.«105008_j89919435309559_1_alg».proof.Proof.Gen.KernelIdeal
import proofs.«105008_j89919435309559_1_alg».proof.Proof.Gen.KernelIdeal.Skeleton
import proofs.«105008_j89919435309559_1_alg».proof.Proof.Gen.KernelIdeal.Launch
import proofs.«105008_j89919435309559_1_alg».proof.Proof.Gen.KernelIdeal.Points
import proofs.«105008_j89919435309559_1_alg».proof.Proof.Gen.KernelIdeal.Frame
import proofs.«105008_j89919435309559_1_alg».proof.Proof.Gen.ReferenceIdeal
import proofs.«105008_j89919435309559_1_alg».proof.Proof.Gen.Pre_finite_inputs
import proofs.«105008_j89919435309559_1_alg».proof.Proof.Gen.ReferenceIdeal.Run
import proofs.«105008_j89919435309559_1_alg».proof.Proof.Gen.ReferenceIdeal.Read
import proofs.«105008_j89919435309559_1_alg».proof.Proof.KernelRun
import proofs.«105008_j89919435309559_1_alg».proof.Proof.KernelFold
import Idealize.ShloMosaic.Adequacy
import Idealize.ShloMosaic.Init

noncomputable section

namespace Cert.Proof

open Idealize.ShloMosaic Idealize.SL.Sem

/-- The kernel as printed runs, faults nowhere and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at the same function of the launch arguments: the kernel's by reading its
    last boundary back through the run, the reference's by its own run; the arguments agree by hypothesis. -/
theorem algebraic : Cert.algebraic_KernelIdeal_ReferenceIdeal := by
  intro m ρ m' ρ' _ hagree
  refine ⟨fun c => Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Fold.result m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v66_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
